-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S4096x1 : Shape := ⟨2, ![4096, 1]⟩
abbrev S4x40960 : Shape := ⟨2, ![4, 40960]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4x40960 : S_.BroadcastsInDim S4x40960 (![] : Fin 0 → Fin S4x40960.rank)
  reducesTo_S4x40960_S_d0_1 : S4x40960.ReducesTo [0, 1] S_
  bcast_S_S4 : S_.BroadcastsInDim S4 (![] : Fin 0 → Fin S4.rank)
  reducesTo_S4_S_d0 : S4.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x8 .f32) (main_arg8 : FVec F S1 .f32) (main_v33 : IVec S_ 1) : IVec S_ 1 :=
  let main_v34 : FVec F S1x8 .f32 := Host.absf main_arg7
  let main_cst_12 : FVec F S_ .f32 := constant S_ .f32 0x7F800000#32
  let main_v35 : FVec F S1x8 .f32 := broadcastInDim S1x8 ![] bcast_S_S1x8 main_cst_12
  let main_v36 : IVec S1x8 1 := cmpf .olt main_v34 main_v35
  let main_c_13 : IVec S_ 1 := constantI S_ 1 1#1
  let main_v37 : IVec S_ 1 := (fun x v => Host.reduce IntOp.andi x v reducesTo_S1x8_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S4 .f32) (main_arg5 : FVec F S8x8 .f32) (main_arg6 : FVec F S8 .f32) (main_arg7 : FVec F S1x8 .f32) (main_arg8 : FVec F S1 .f32) (main_v13 : IVec S_ 1) (main_v16 : IVec S4x40960 1) : IVec S_ 1 :=
  let main_c_5 : IVec S_ 1 := constantI S_ 1 1#1
  let main_v17 : IVec S_ 1 := (fun x v => Host.reduce IntOp.andi x v reducesTo_S4x40960_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S8x8 .f32 := Host.absf main_arg5
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_v33

def fn {F : FTy → Type} [FloatOps F] (main_arg0 : FVec F S4096x40960 .f32) (main_arg1 : FVec F S4096x40960 .f32) (main_arg2 : FVec F S4096x1 .f32) (main_arg3 : FVec F S4x40960 .f32) (main_arg4 : FVec F S4 .f32) (main_arg5 : FVec F S8x8 .f32) (main_arg6 : FVec F S8 .f32) (main_arg7 : FVec F S1x8 .f32) (main_arg8 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4x40960 .f32 := Host.absf main_arg3
  let main_cst_4 : FVec F S_ .f32 := constant S_ .f32 0x7F800000#32
  let main_v15 : FVec F S4x40960 .f32 := broadcastInDim S4x40960 ![] bcast_S_S4x40960 main_cst_4
  let main_v16 : IVec S4x40960 1 := cmpf .olt main_v14 main_v15
  fn_part1 (F := F) main_arg4 main_arg5 main_arg6 main_arg7 main_arg8 main_v13 main_v16
-- ==== Kernel.lean ====
abbrev S4096x40960 : Shape := ⟨2, ![4096, 40960]⟩
abbrev S4096x1 : Shape := ⟨2, ![4096, 1]⟩
abbrev S4x40960 : Shape := ⟨2, ![4, 40960]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S40960x4 : Shape := ⟨2, ![40960, 4]⟩
abbrev S512x2048 : Shape := ⟨2, ![512, 2048]⟩
abbrev S512x1 : Shape := ⟨2, ![512, 1]⟩
abbrev S2048x4 : Shape := ⟨2, ![2048, 4]⟩
abbrev S512x4 : Shape := ⟨2, ![512, 4]⟩
abbrev S1x4 : Shape := ⟨2, ![1, 4]⟩
abbrev S512x8 : Shape := ⟨2, ![512, 8]⟩
abbrev S8x1 : Shape := ⟨2, ![8, 1]⟩
abbrev S1x1 : Shape := ⟨2, ![1, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096x1, .f32⟩
  | .hbm, ⟨3, _⟩ => ⟨S4x40960, .f32⟩
  | .hbm, ⟨4, _⟩ => ⟨S4, .f32⟩
  | .hbm, ⟨5, _⟩ => ⟨S8x8, .f32⟩
  | .hbm, ⟨6, _⟩ => ⟨S8, .f32⟩
  | .hbm, ⟨7, _⟩ => ⟨S1x8, .f32⟩
  | .hbm, ⟨8, _⟩ => ⟨S1, .f32⟩
  | .hbm, ⟨9, _⟩ => ⟨S40960x4, .f32⟩
  | .hbm, ⟨10, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S2048x4, .f32⟩
  | .local _ .vmem, ⟨7, _⟩ => ⟨S2048x4, .f32⟩
  | .local _ .vmem, ⟨8, _⟩ => ⟨S4, .f32⟩
  | .local _ .vmem, ⟨9, _⟩ => ⟨S8x8, .f32⟩
  | .local _ .vmem, ⟨10, _⟩ => ⟨S8, .f32⟩
  | .local _ .vmem, ⟨11, _⟩ => ⟨S1x8, .f32⟩
  | .local _ .vmem, ⟨12, _⟩ => ⟨S1, .f32⟩
  | .local _ .vmem, ⟨13, _⟩ => ⟨S512x1, .f32⟩
  | .local _ .vmem, ⟨14, _⟩ => ⟨S512x1, .f32⟩
  | .local _ .vmem, ⟨15, _⟩ => ⟨S512x4, .f32⟩
  | .local _ .vmem, ⟨16, _⟩ => ⟨S512x4, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 20], ![false, false]⟩

def k0_cond2 (i : grid0.Coords) : BitVec 1 :=
  let arg1 : BitVec 32 := BitVec.ofNat 32 (i 1).val
  let c19_i32 : BitVec 32 := 19#32
  let v22 : BitVec 1 := Scalar.cmpi .eq arg1 c19_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S4x40960_S40960x4_1_0 : S4x40960.Transposes [1, 0] S40960x4
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S4_S4_0 : ∀ a, (![0] : Fin 1 → Nat) a + S4.size a ≤ S4.size a
  h_S4 : 0 < S4.numel
  shapeCasts_S4_S1x4 : S4.ShapeCasts S1x4
  broadcasts_S1x4_S512x4 : S1x4.Broadcasts S512x4
  inb_S512x1_S512x1_0_0 : ∀ a, (![0, 0] : Fin 2 → Nat) a + S512x1.size a ≤ S512x1.size a
  h_S512x1 : 0 < S512x1.numel
  concatenates_S512x4_S512x4_S512x8_d1 : Shape.Concatenates [S512x4, S512x4] S512x8 1
  broadcasts_S512x1_S512x8 : S512x1.Broadcasts S512x8
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S8_S8_0 : ∀ a, (![0] : Fin 1 → Nat) a + S8.size a ≤ S8.size a
  h_S8 : 0 < S8.numel
  shapeCasts_S8_S1x8 : S8.ShapeCasts S1x8
  broadcasts_S1x8_S512x8 : S1x8.Broadcasts S512x8
  inb_S1x8_S1x8_0_0 : ∀ a, (![0, 0] : Fin 2 → Nat) a + S1x8.size a ≤ S1x8.size a
  h_S1x8 : 0 < S1x8.numel
  transposes_S1x8_p1_0_S8x1 : S1x8.Transposes [1, 0] S8x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  dot_S512x2048_S2048x4_S512x4_1_0_0_1_n_n_wf : DotDims.WF S512x2048 S2048x4 S512x4 [1] [0] [0] [1] [] []
  dot_S512x8_S8x8_S512x8_1_0_0_1_n_n_wf : DotDims.WF S512x8 S8x8 S512x8 [1] [0] [0] [1] [] []
  dot_S512x8_S8x1_S512x1_1_0_0_1_n_n_wf : DotDims.WF S512x8 S8x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x40960.size a
  hwx0_0 : ∀ i : grid0.Coords, EltTy.bits .f32 = 32 ∨ (Rect.block (s := S4096x40960) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x40960.size a
  hwx0_1 : ∀ i : grid0.Coords, EltTy.bits .f32 = 32 ∨ (Rect.block (s := S4096x40960) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x4.size a ≤ S40960x4.size a
  hwx0_3 : ∀ i : grid0.Coords, EltTy.bits .f32 = 32 ∨ (Rect.block (s := S40960x4) S2048x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x8.size a ≤ S8x8.size a
  hwx0_5 : ∀ i : grid0.Coords, EltTy.bits .f32 = 32 ∨ (Rect.block (s := S8x8) S8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S4096x1.size a
  hwx0_9 : ∀ i : grid0.Coords, EltTy.bits .f32 = 32 ∨ (Rect.block (s := S4096x1) S512x1.size (cc0_transform_9 i) (hinb0_9 i)).WholeWords (EltTy.packing .f32)

variable [Facts₀]

def dot_S512x2048_S2048x4_S512x4_1_0_0_1_n_n : DotDims S512x2048 S2048x4 S512x4 where
  lhsContracting := [1]
  rhsContracting := [0]
  lhsNonContracting := [0]
  rhsNonContracting := [1]
  lhsBatch := []
  rhsBatch := []
  wf := dot_S512x2048_S2048x4_S512x4_1_0_0_1_n_n_wf
def dot_S512x8_S8x8_S512x8_1_0_0_1_n_n : DotDims S512x8 S8x8 S512x8 where
  lhsContracting := [1]
  rhsContracting := [0]
  lhsNonContracting := [0]
  rhsNonContracting := [1]
  lhsBatch := []
  rhsBatch := []
  wf := dot_S512x8_S8x8_S512x8_1_0_0_1_n_n_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4096x40960 : Shape := ⟨2, ![4096, 40960]⟩
abbrev S4096x1 : Shape := ⟨2, ![4096, 1]⟩
abbrev S4x40960 : Shape := ⟨2, ![4, 40960]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S4096x4 : Shape := ⟨2, ![4096, 4]⟩
abbrev S1x4 : Shape := ⟨2, ![1, 4]⟩
abbrev S4096x8 : Shape := ⟨2, ![4096, 8]⟩
abbrev S_ : Shape := ⟨0, ![]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096x1, .f32⟩
  | .hbm, ⟨3, _⟩ => ⟨S4x40960, .f32⟩
  | .hbm, ⟨4, _⟩ => ⟨S4, .f32⟩
  | .hbm, ⟨5, _⟩ => ⟨S8x8, .f32⟩
  | .hbm, ⟨6, _⟩ => ⟨S8, .f32⟩
  | .hbm, ⟨7, _⟩ => ⟨S1x8, .f32⟩
  | .hbm, ⟨8, _⟩ => ⟨S1, .f32⟩
  | .hbm, ⟨9, _⟩ => ⟨S4096x4, .f32⟩
  | .hbm, ⟨10, _⟩ => ⟨S1x4, .f32⟩
  | .hbm, ⟨11, _⟩ => ⟨S4096x4, .f32⟩
  | .hbm, ⟨12, _⟩ => ⟨S4096x4, .f32⟩
  | .hbm, ⟨13, _⟩ => ⟨S4096x4, .f32⟩
  | .hbm, ⟨14, _⟩ => ⟨S1x4, .f32⟩
  | .hbm, ⟨15, _⟩ => ⟨S4096x4, .f32⟩
  | .hbm, ⟨16, _⟩ => ⟨S4096x4, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x8, .f32⟩
  | .hbm, ⟨31, _⟩ => ⟨S4096x8, .f32⟩
  | .hbm, ⟨32, _⟩ => ⟨S_, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S1x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x8, .f32⟩
  | .hbm, ⟨43, _⟩ => ⟨S4096x8, .f32⟩
  | .hbm, ⟨44, _⟩ => ⟨S_, .f32⟩
  | .hbm, ⟨45, _⟩ => ⟨S4096x8, .f32⟩
  | .hbm, ⟨46, _⟩ => ⟨S4096x8, .f32⟩
  | .hbm, ⟨47, _⟩ => ⟨S4096x1, .f32⟩
  | .hbm, ⟨48, _⟩ => ⟨S1x1, .f32⟩
  | .hbm, ⟨49, _⟩ => ⟨S4096x1, .f32⟩
  | .hbm, ⟨50, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  concatenates_S4096x4_S4096x4_S4096x8_d1 : Shape.Concatenates [S4096x4, S4096x4] S4096x8 1
  bcast_S4096x1_S4096x8_0_1 : S4096x1.BroadcastsInDim S4096x8 (![0, 1] : Fin 2 → Fin S4096x8.rank)
  bcast_S_S4096x1 : S_.BroadcastsInDim S4096x1 (![] : Fin 0 → Fin S4096x1.rank)
  bcast_S_S4096x8 : S_.BroadcastsInDim S4096x8 (![] : Fin 0 → Fin S4096x8.rank)
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S4x40960_S4096x4_1_1_0_0_n_n_wf : DotDims.WF S4096x40960 S4x40960 S4096x4 [1] [1] [0] [0] [] []
  dot_S4096x8_S8x8_S4096x8_1_1_0_0_n_n_wf : DotDims.WF S4096x8 S8x8 S4096x8 [1] [1] [0] [0] [] []
  dot_S4096x8_S1x8_S4096x1_1_1_0_0_n_n_wf : DotDims.WF S4096x8 S1x8 S4096x1 [1] [1] [0] [0] [] []

variable [Facts₀]

def dot_S4096x40960_S4x40960_S4096x4_1_1_0_0_n_n : DotDims S4096x40960 S4x40960 S4096x4 where
  lhsContracting := [1]
  rhsContracting := [1]
  lhsNonContracting := [0]
  rhsNonContracting := [0]
  lhsBatch := []
  rhsBatch := []
  wf := dot_S4096x40960_S4x40960_S4096x4_1_1_0_0_n_n_wf
def dot_S4096x8_S8x8_S4096x8_1_1_0_0_n_n : DotDims S4096x8 S8x8 S4096x8 where
  lhsContracting := [1]
  rhsContracting := [1]
  lhsNonContracting := [0]
  rhsNonContracting := [0]
  lhsBatch := []
  rhsBatch := []
  wf := dot_S4096x8_S8x8_S4096x8_1_1_0_0_n_n_wf
def dot_S4096x8_S1x8_S4096x1_1_1_0_0_n_n : DotDims S4096x8 S1x8 S4096x1 where
  lhsContracting := [1]
  rhsContracting := [1]
  lhsNonContracting := [0]
  rhsNonContracting := [0]
  lhsBatch := []
  rhsBatch := []
  wf := dot_S4096x8_S1x8_S4096x1_1_1_0_0_n_n_wf

class Facts : Prop extends Facts₀ where

variable [Facts]
-- ==== Proof.Spec.lean ====
/-
  The function both programs compute, one output row at a time, on the extended reals.

  For a row r the two feature sums are  w[o] = (∑ f, wfts[r, f] * ft_w[o, f]) + ft_b[o]  and the same
  with bfts, o < 4.  The eight hidden inputs are  s * (w ++ b)[c] + (1 - s) * (b ++ w)[c]  with
  s = stm[r], clipped to [0, 1] as  min 1 (max 0 x); the first layer is  (∑ i, h[i] * l1_w[o, i]) + l1_b[o],
  clipped again; the output is  (∑ i, h'[i] * l2_w[0, i]) + l2_b[0].

  One program sums the 40960 features in one go, the other 2048 at a time starting from zero; addition of
  extended reals is commutative and associative, so the running sum after k blocks is the sum over the
  first 2048 k features, and after twenty blocks it is the whole sum.  Nothing here asks an entry to be finite.
-/
import Idealize.ShloMosaic.PureOps.Ideal
import Idealize.ShloMosaic.PureOps.Ideal.Laws
import Idealize.ShloMosaic.Lib.ValueIdx

noncomputable section

open scoped BigOperators

namespace Cert.Nnue

open Idealize.ShloMosaic Idealize.ShloMosaic.ValueIdx

/-- The two float literals of both programs, kept as their words. -/
abbrev one : EReal := Ideal.ofBits .f32 0x3F800000#32
abbrev zero : EReal := Ideal.ofBits .f32 0x00000000#32

/-- Two 4-vectors laid end to end. -/
def cat (u v : Fin 4 → EReal) (c : Fin 8) : EReal :=
  if h : c.val < 4 then u ⟨c.val, h⟩ else v ⟨c.val - 4, by have := c.isLt; omega⟩

/-- The side-to-move blend of the two orders of the feature sums. -/
def mix (w b : Fin 4 → EReal) (s : EReal) (c : Fin 8) : EReal :=
  s * cat w b c + (one - s) * cat b w c

/-- Clipping to [0, 1]: first from below, then from above. -/
def clip01 (x : EReal) : EReal := min one (max zero x)

/-- The first layer before its clip. -/
def layer1 (w b : Fin 4 → EReal) (s : EReal) (l1w : Fin 8 → Fin 8 → EReal) (l1b : Fin 8 → EReal) (o : Fin 8) : EReal :=
  (∑ i : Fin 8, clip01 (mix w b s i) * l1w o i) + l1b o

/-- One row's output. -/
def head (w b : Fin 4 → EReal) (s : EReal) (l1w : Fin 8 → Fin 8 → EReal) (l1b : Fin 8 → EReal)
    (l2w : Fin 8 → EReal) (l2b : EReal) : EReal :=
  (∑ i : Fin 8, clip01 (layer1 w b s l1w l1b i) * l2w i) + l2b

/-- The feature sum of row r against weight row o, with its bias. -/
def feat (x : (⟨2, ![4096, 40960]⟩ : Shape).Idx → EReal) (ftw : (⟨2, ![4, 40960]⟩ : Shape).Idx → EReal)
    (ftb : (⟨1, ![4]⟩ : Shape).Idx → EReal) (r : Fin 4096) (o : Fin 4) : EReal :=
  (∑ f : Fin 40960, x (ix2 r f) * ftw (ix2 o f)) + ftb (ix1 o)

/-- The whole result array as a function of the nine argument arrays. -/
def G (wfts bfts : (⟨2, ![4096, 40960]⟩ : Shape).Idx → EReal) (stm : (⟨2, ![4096, 1]⟩ : Shape).Idx → EReal)
    (ftw : (⟨2, ![4, 40960]⟩ : Shape).Idx → EReal) (ftb : (⟨1, ![4]⟩ : Shape).Idx → EReal)
    (l1w : (⟨2, ![8, 8]⟩ : Shape).Idx → EReal) (l1b : (⟨1, ![8]⟩ : Shape).Idx → EReal)
    (l2w : (⟨2, ![1, 8]⟩ : Shape).Idx → EReal) (l2b : (⟨1, ![1]⟩ : Shape).Idx → EReal) :
    (⟨2, ![4096, 1]⟩ : Shape).Idx → EReal := fun j =>
  head (feat wfts ftw ftb (j 0)) (feat bfts ftw ftb (j 0)) (stm (ix2 (j 0) 0))
    (fun o i => l1w (ix2 o i)) (fun o => l1b (ix1 o)) (fun i => l2w (ix2 0 i)) (l2b (ix1 0))

/-! ## A sum over 40960 features taken 2048 at a time -/

/-- The sum over the features before block k. -/
def pre (g : Fin 40960 → EReal) (k : ℕ) : EReal :=
  ∑ f ∈ Finset.univ.filter (fun f : Fin 40960 => f.val < 2048 * k), g f

/-- Feature j of block k. -/
abbrev feature (k : ℕ) (hk : k < 20) (j : Fin 2048) : Fin 40960 := ⟨2048 * k + j.val, by have := j.isLt; omega⟩

theorem pre_zero (g : Fin 40960 → EReal) : pre g 0 = 0 := by
  unfold pre
  rw [Finset.filter_false_of_mem (by intro f _; omega)]
  exact Finset.sum_empty

theorem pre_full (g : Fin 40960 → EReal) : pre g 20 = ∑ f : Fin 40960, g f := by
  unfold pre
  rw [Finset.filter_true_of_mem (by intro f _; have := f.isLt; omega)]

/-- Adding block k to the sum of the blocks before it gives the sum of the blocks up to and with k. -/
theorem pre_succ (g : Fin 40960 → EReal) (k : ℕ) (hk : k < 20) :
    pre g k + ∑ j : Fin 2048, g (feature k hk j) = pre g (k + 1) := by
  classical
  unfold pre
  have hsplit : Finset.univ.filter (fun f : Fin 40960 => f.val < 2048 * (k + 1))
      = Finset.univ.filter (fun f : Fin 40960 => f.val < 2048 * k)
        ∪ Finset.univ.image (feature k hk) := by
    ext f
    simp only [Finset.mem_filter, Finset.mem_univ, true_and, Finset.mem_union, Finset.mem_image]
    constructor
    · intro h
      by_cases h' : f.val < 2048 * k
      · exact Or.inl h'
      · exact Or.inr ⟨⟨f.val - 2048 * k, by omega⟩, Fin.ext (by show 2048 * k + (f.val - 2048 * k) = f.val; omega)⟩
    · rintro (h | ⟨j, rfl⟩)
      · omega
      · show 2048 * k + j.val < 2048 * (k + 1)
        have := j.isLt; omega
  have hdisj : Disjoint (Finset.univ.filter (fun f : Fin 40960 => f.val < 2048 * k))
      (Finset.univ.image (feature k hk)) := by
    rw [Finset.disjoint_left]
    intro f hf hf'
    simp only [Finset.mem_filter, Finset.mem_univ, true_and] at hf
    simp only [Finset.mem_image, Finset.mem_univ, true_and] at hf'
    obtain ⟨j, rfl⟩ := hf'
    have : 2048 * k + j.val < 2048 * k := hf
    omega
  rw [hsplit, Finset.sum_union hdisj, Finset.sum_image]
  intro a _ b _ h
  have h' : 2048 * k + a.val = 2048 * k + b.val := congrArg Fin.val h
  exact Fin.ext (by omega)

/-- Starting a row block: zero plus the first block is the sum up to and with the first block. -/
theorem first_block (g : Fin 40960 → EReal) (k : ℕ) (hk : k < 20) (h0 : k = 0) :
    0 + ∑ j : Fin 2048, g (feature k hk j) = pre g (k + 1) := by
  subst h0
  rw [← pre_zero g]
  exact pre_succ g 0 hk

/-- A running sum walked over 160 points, twenty feature blocks to a row block.  At a row block's first
    point the sum restarts from zero; at every other point it adds that point's block to what the point
    before left, and the summand does not change within a row block.  Then after point n the sum is the
    sum over the first (n mod 20) + 1 blocks of point n's summand. -/
theorem running_sum (S : (n : ℕ) → n < 160 → EReal) (g : (n : ℕ) → n < 160 → Fin 40960 → EReal)
    (hfirst : ∀ (n : ℕ) (hn : n < 160), n % 20 = 0 →
      S n hn = 0 + ∑ j : Fin 2048, g n hn (feature (n % 20) (Nat.mod_lt _ (by decide)) j))
    (hnext : ∀ (n : ℕ) (hn : n + 1 < 160), (n + 1) % 20 ≠ 0 →
      S (n + 1) hn = S n (Nat.lt_of_succ_lt hn)
        + ∑ j : Fin 2048, g (n + 1) hn (feature ((n + 1) % 20) (Nat.mod_lt _ (by decide)) j))
    (hrow : ∀ (n : ℕ) (hn : n + 1 < 160), (n + 1) % 20 ≠ 0 → g n (Nat.lt_of_succ_lt hn) = g (n + 1) hn) :
    ∀ (n : ℕ) (hn : n < 160), S n hn = pre (g n hn) (n % 20 + 1) := by
  intro n
  induction n with
  | zero =>
    intro hn
    rw [hfirst 0 hn rfl]
    exact first_block _ _ _ rfl
  | succ n ih =>
    intro hn
    by_cases h0 : (n + 1) % 20 = 0
    · rw [hfirst (n + 1) hn h0]
      exact first_block _ _ _ h0
    · rw [hnext n hn h0, ih (Nat.lt_of_succ_lt hn), hrow n hn h0]
      have hk : n % 20 + 1 = (n + 1) % 20 := by omega
      rw [hk]
      exact pre_succ _ _ _

end Cert.Nnue

end
-- ==== Proof.Layout.lean ====
/-
  Three layout readings both programs use, at an index written by its coordinates.

  A column [a, 1] broadcast along the second axis reads, at (p, c), the column's entry of row p.
  Two [n, 4] arrays laid side by side into [n, 8] read, at (p, c), the first at (p, c) when c < 4 and the
  second at (p, c - 4) otherwise: row p of the result is the two rows laid end to end.
  A bias vector read as one row and broadcast down the rows reads, at (p, q), the bias at q.
-/
import Idealize.ShloMosaic.Lib.Pipeline.Value
import Idealize.ShloMosaic.Lib.ValueLayout
import proofs.«156854_j5832565588369_1_alg».proof.Proof.Spec

noncomputable section

namespace Cert.Nnue

open Idealize.ShloMosaic Idealize.ShloMosaic.ValueIdx

variable {α : Type}

/-- A column broadcast along the rows' axis: every entry of row p is the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two [n, 4] arrays side by side: row p of the result is row p of the first then row p of the second. -/
theorem concat_cols_apply {n : ℕ} (x y : (⟨2, ![n, 4]⟩ : Shape).Idx → EReal)
    (h : Shape.Concatenates [(⟨2, ![n, 4]⟩ : Shape), ⟨2, ![n, 4]⟩] ⟨2, ![n, 8]⟩ 1) (p : Fin n) (c : Fin 8) :
    concatenate ⟨2, ![n, 8]⟩ 1 [⟨⟨2, ![n, 4]⟩, x⟩, ⟨⟨2, ![n, 4]⟩, y⟩] h (ix2 p c)
      = cat (fun o => x (ix2 p o)) (fun o => y (ix2 p o)) c := by
  unfold cat
  by_cases hc : c.val < 4
  · rw [dif_pos hc]
    exact concatenate_pair_apply_left (1 : Fin 2) x y h (ix2 p c) rfl (ix2 p ⟨c.val, hc⟩)
      (fun b => match b with | ⟨0, _⟩ => rfl | ⟨1, _⟩ => rfl)
  · rw [dif_neg hc]
    have hlt : c.val - 4 < 4 := by have := c.isLt; omega
    exact concatenate_pair_apply_right (1 : Fin 2) x y h (ix2 p c) rfl rfl (ix2 p ⟨c.val - 4, hlt⟩)
      (fun b hb => match b, hb with
        | ⟨0, _⟩, _ => rfl
        | ⟨1, _⟩, hb => absurd rfl hb)
      (by show (c.val - 4) + 4 = c.val; omega)

/-- A bias vector [b] read as one row [1, b] and broadcast down a rows: entry (p, q) is the bias at q. -/
theorem row_bcast_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

end Cert.Nnue

end
-- ==== Proof.RefG.lean ====
/-
  The reference computes the row function of the specification, index by index.

  Its two contractions over the features are the feature sums (the weight array is indexed [o, f] on
  both sides of the product), its two four-column blocks laid side by side are the two orders of the
  feature sums, its clips are the minimum with 1 of the maximum with 0, and its two small contractions
  are the first layer and the output, each with its bias row broadcast down the rows.
-/
import proofs.«156854_j5832565588369_1_alg».proof.Proof.Gen.ReferenceIdeal.Read
import proofs.«156854_j5832565588369_1_alg».proof.Proof.Layout

noncomputable section

open scoped BigOperators

namespace Cert.ReferenceIdeal.RefG

open Cert.ReferenceIdeal Cert.ReferenceIdeal.Read Idealize.ShloMosaic Idealize.ShloMosaic.ValueIdx Cert.Nnue

variable (x0 x1 : (⟨S4096x40960, .f32⟩ : BufTy).Contents (Elt Ideal)) (x2 : (⟨S4096x1, .f32⟩ : BufTy).Contents (Elt Ideal))
  (x3 : (⟨S4x40960, .f32⟩ : BufTy).Contents (Elt Ideal)) (x4 : (⟨S4, .f32⟩ : BufTy).Contents (Elt Ideal))
  (x5 : (⟨S8x8, .f32⟩ : BufTy).Contents (Elt Ideal)) (x6 : (⟨S8, .f32⟩ : BufTy).Contents (Elt Ideal))
  (x7 : (⟨S1x8, .f32⟩ : BufTy).Contents (Elt Ideal)) (x8 : (⟨S1, .f32⟩ : BufTy).Contents (Elt Ideal))

/-- The bias row broadcast down the rows reads the bias at the column. -/
theorem bias4 (r : Fin 4096) (o : Fin 4) : val_main_v2 (F := Ideal) x4 (ix2 r o) = x4 (ix1 o) := by
  rw [val_main_v2_apply, val_main_v1_apply]
  exact congrArg x4 (funext fun a => match a with | ⟨0, _⟩ => rfl)

theorem bias4' (r : Fin 4096) (o : Fin 4) : val_main_v6 (F := Ideal) x4 (ix2 r o) = x4 (ix1 o) := by
  rw [val_main_v6_apply, val_main_v5_apply]
  exact congrArg x4 (funext fun a => match a with | ⟨0, _⟩ => rfl)

/-- The first contraction plus its bias is the feature sum of the first feature array. -/
theorem feat_w (r : Fin 4096) (o : Fin 4) :
    val_main_v3 (F := Ideal) x0 x3 x4 (ix2 r o) = feat x0 x3 x4 r o := by
  rw [val_main_v3_apply, val_main_v0_apply, bias4]
  have el : ∀ k : Fin 40960, lidx_main_v0 (ix2 r o) k = ix2 r k := fun k =>
    funext fun a => match a with | ⟨0, _⟩ => rfl | ⟨1, _⟩ => rfl
  have er : ∀ k : Fin 40960, ridx_main_v0 (ix2 r o) k = ix2 o k := fun k =>
    funext fun a => match a with | ⟨0, _⟩ => rfl | ⟨1, _⟩ => rfl
  simp only [el, er]
  rfl

/-- The same for the second feature array. -/
theorem feat_b (r : Fin 4096) (o : Fin 4) :
    val_main_v7 (F := Ideal) x1 x3 x4 (ix2 r o) = feat x1 x3 x4 r o := by
  rw [val_main_v7_apply, val_main_v4_apply, bias4']
  have el : ∀ k : Fin 40960, lidx_main_v4 (ix2 r o) k = ix2 r k := fun k =>
    funext fun a => match a with | ⟨0, _⟩ => rfl | ⟨1, _⟩ => rfl
  have er : ∀ k : Fin 40960, ridx_main_v4 (ix2 r o) k = ix2 o k := fun k =>
    funext fun a => match a with | ⟨0, _⟩ => rfl | ⟨1, _⟩ => rfl
  simp only [el, er]
  rfl

/-- The two side-by-side arrangements, row r. -/
theorem cat_wb (r : Fin 4096) (c : Fin 8) :
    val_main_v8 (F := Ideal) x0 x1 x3 x4 (ix2 r c) = cat (feat x0 x3 x4 r) (feat x1 x3 x4 r) c := by
  unfold val_main_v8
  rw [concat_cols_apply]
  simp only [feat_w, feat_b]

theorem cat_bw (r : Fin 4096) (c : Fin 8) :
    val_main_v13 (F := Ideal) x0 x1 x3 x4 (ix2 r c) = cat (feat x1 x3 x4 r) (feat x0 x3 x4 r) c := by
  unfold val_main_v13
  rw [concat_cols_apply]
  simp only [feat_w, feat_b]

/-- The blend before the clip. -/
theorem blend (r : Fin 4096) (c : Fin 8) :
    val_main_v16 (F := Ideal) x0 x1 x2 x3 x4 (ix2 r c)
      = mix (feat x0 x3 x4 r) (feat x1 x3 x4 r) (x2 (ix2 r 0)) c := by
  rw [val_main_v16_apply, val_main_v10_apply, val_main_v15_apply, val_main_v9_apply, val_main_v14_apply,
    val_main_v12_apply, val_main_v11_apply, val_main_cst_apply, cat_wb, cat_bw]
  have e : idx_main_v9 (ix2 r c) = ix2 r (0 : Fin 1) :=
    funext fun a => match a with | ⟨0, _⟩ => rfl | ⟨1, _⟩ => rfl
  have e' : idx_main_v14 (ix2 r c) = ix2 r (0 : Fin 1) :=
    funext fun a => match a with | ⟨0, _⟩ => rfl | ⟨1, _⟩ => rfl
  rw [e, e']
  rfl

/-- The first clip. -/
theorem hidden (r : Fin 4096) (c : Fin 8) :
    val_main_v17 (F := Ideal) x0 x1 x2 x3 x4 (ix2 r c)
      = clip01 (mix (feat x0 x3 x4 r) (feat x1 x3 x4 r) (x2 (ix2 r 0)) c) := by
  rw [val_main_v17_apply, val_main_call0_v4_apply, val_main_call0_v3_apply, val_main_cst_1_apply,
    val_main_call0_v2_apply, val_main_call0_v1_apply, val_main_call0_v0_apply, val_main_cst_0_apply, blend]
  rfl

/-- The first layer before its clip. -/
theorem first (r : Fin 4096) (o : Fin 8) :
    val_main_v21 (F := Ideal) x0 x1 x2 x3 x4 x5 x6 (ix2 r o)
      = layer1 (feat x0 x3 x4 r) (feat x1 x3 x4 r) (x2 (ix2 r 0)) (fun o i => x5 (ix2 o i)) (fun o => x6 (ix1 o)) o := by
  rw [val_main_v21_apply, val_main_v18_apply, val_main_v20_apply, val_main_v19_apply]
  have el : ∀ k : Fin 8, lidx_main_v18 (ix2 r o) k = ix2 r k := fun k =>
    funext fun a => match a with | ⟨0, _⟩ => rfl | ⟨1, _⟩ => rfl
  have er : ∀ k : Fin 8, ridx_main_v18 (ix2 r o) k = ix2 o k := fun k =>
    funext fun a => match a with | ⟨0, _⟩ => rfl | ⟨1, _⟩ => rfl
  have eb : idx_main_v19 (idx_main_v20 (ix2 r o)) = ix1 o :=
    funext fun a => match a with | ⟨0, _⟩ => rfl
  simp only [el, er, eb, hidden]
  rfl

/-- The second clip. -/
theorem hidden2 (r : Fin 4096) (o : Fin 8) :
    val_main_v22 (F := Ideal) x0 x1 x2 x3 x4 x5 x6 (ix2 r o)
      = clip01 (layer1 (feat x0 x3 x4 r) (feat x1 x3 x4 r) (x2 (ix2 r 0)) (fun o i => x5 (ix2 o i)) (fun o => x6 (ix1 o)) o) := by
  rw [val_main_v22_apply, val_main_call1_v4_apply, val_main_call1_v3_apply, val_main_cst_3_apply,
    val_main_call1_v2_apply, val_main_call1_v1_apply, val_main_call1_v0_apply, val_main_cst_2_apply, first]
  rfl

/-- The reference's result array is the specification's function of the arguments. -/
theorem result_eq :
    val_main_v26 (F := Ideal) x0 x1 x2 x3 x4 x5 x6 x7 x8 = G x0 x1 x2 x3 x4 x5 x6 x7 x8 := by
  funext j
  obtain ⟨r, q, rfl⟩ : ∃ (r : Fin 4096) (q : Fin 1), j = ix2 r q := ⟨j 0, j 1, eq_ix2 j⟩
  have hq : q = 0 := Fin.ext (by omega)
  subst hq
  rw [val_main_v26_apply, val_main_v23_apply, val_main_v25_apply, val_main_v24_apply]
  have el : ∀ k : Fin 8, lidx_main_v23 (ix2 r (0 : Fin 1)) k = ix2 r k := fun k =>
    funext fun a => match a with | ⟨0, _⟩ => rfl | ⟨1, _⟩ => rfl
  have er : ∀ k : Fin 8, ridx_main_v23 (ix2 r (0 : Fin 1)) k = ix2 (0 : Fin 1) k := fun k =>
    funext fun a => match a with | ⟨0, _⟩ => rfl | ⟨1, _⟩ => rfl
  have eb : idx_main_v24 (idx_main_v25 (ix2 r (0 : Fin 1))) = ix1 (0 : Fin 1) :=
    funext fun a => match a with | ⟨0, _⟩ => rfl
  simp only [el, er, eb, hidden2]
  rfl

end Cert.ReferenceIdeal.RefG

end
-- ==== Proof.KPieces.lean ====
/-
  What each control case of the body leaves behind, as values of its loaded blocks.

  At a row block's first feature block the two accumulators are set to zero and then updated, so they
  end at the update of zero.  At every other point they end at the update of what the point before left.
  At the last feature block the output block is the small network applied to the two accumulators just
  updated (the stores are read back by the loads that follow them).
  Every store covers its whole buffer, so what a buffer holds afterwards is the last store's value, and a
  load after a store reads that value.
-/
import proofs.«156854_j5832565588369_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-! ## A row block's first point: reset, then update -/

theorem first_acc_w (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x4 .f32) (harg5 : arg5.IsWhole) (arg6 : Memref sig .tc .vmem S4 .f32) (harg6 : arg6.IsWhole) (arg7 : Memref sig .tc .vmem S8x8 .f32) (harg7 : arg7.IsWhole) (arg8 : Memref sig .tc .vmem S8 .f32) (harg8 : arg8.IsWhole) (arg9 : Memref sig .tc .vmem S1x8 .f32) (harg9 : arg9.IsWhole) (arg10 : Memref sig .tc .vmem S1 .f32) (harg10 : arg10.IsWhole) (arg11 : Memref sig .tc .vmem S512x1 .f32) (harg11 : arg11.IsWhole) (arg12 : Memref sig .tc .vmem S512x4 .f32) (harg12 : arg12.IsWhole) (arg13 : Memref sig .tc .vmem S512x4 .f32) (harg13 : arg13.IsWhole) (hc0 : cond0_0 i) (hc1 : ¬cond0_1 i) (x0 : Vec F S512x2048 .f32) (x1 : Vec F S512x2048 .f32) (x2 : Vec F S512x1 .f32) (x3 : Vec F S2048x4 .f32) (x4 : Vec F S4 .f32) (x5 : Vec F S8x8 .f32) (x6 : Vec F S8 .f32) (x7 : Vec F S1x8 .f32) (x8 : Vec F S1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay4 x0 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S512x4) hz2, View.readCov_unit_zero (S := S512x4) _ hz2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz2, View.ld_unit_zero (S := S2048x4) hz2, View.ld_unit_zero (S := S512x4) hz2, View.ld_unit_zero (S := S512x1) hz2, View.ld_unit_zero (S := S8x8) hz2, View.ld_unit_zero (S := S1x8) hz2, View.ld_unit_zero (S := S4) hz1, View.ld_unit_zero (S := S8) hz1, View.ld_unit_zero (S := S1) hz1]

theorem first_acc_b (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x4 .f32) (harg5 : arg5.IsWhole) (arg6 : Memref sig .tc .vmem S4 .f32) (harg6 : arg6.IsWhole) (arg7 : Memref sig .tc .vmem S8x8 .f32) (harg7 : arg7.IsWhole) (arg8 : Memref sig .tc .vmem S8 .f32) (harg8 : arg8.IsWhole) (arg9 : Memref sig .tc .vmem S1x8 .f32) (harg9 : arg9.IsWhole) (arg10 : Memref sig .tc .vmem S1 .f32) (harg10 : arg10.IsWhole) (arg11 : Memref sig .tc .vmem S512x1 .f32) (harg11 : arg11.IsWhole) (arg12 : Memref sig .tc .vmem S512x4 .f32) (harg12 : arg12.IsWhole) (arg13 : Memref sig .tc .vmem S512x4 .f32) (harg13 : arg13.IsWhole) (hc0 : cond0_0 i) (hc1 : ¬cond0_1 i) (x0 : Vec F S512x2048 .f32) (x1 : Vec F S512x2048 .f32) (x2 : Vec F S512x1 .f32) (x3 : Vec F S2048x4 .f32) (x4 : Vec F S4 .f32) (x5 : Vec F S8x8 .f32) (x6 : Vec F S8 .f32) (x7 : Vec F S1x8 .f32) (x8 : Vec F S1 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay5 x1 x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S512x4) hz2, View.readCov_unit_zero (S := S512x4) _ hz2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz2, View.ld_unit_zero (S := S2048x4) hz2, View.ld_unit_zero (S := S512x4) hz2, View.ld_unit_zero (S := S512x1) hz2, View.ld_unit_zero (S := S8x8) hz2, View.ld_unit_zero (S := S1x8) hz2, View.ld_unit_zero (S := S4) hz1, View.ld_unit_zero (S := S8) hz1, View.ld_unit_zero (S := S1) hz1]

/-! ## A middle point: update what the point before left -/

theorem mid_acc_w (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x4 .f32) (harg5 : arg5.IsWhole) (arg6 : Memref sig .tc .vmem S4 .f32) (harg6 : arg6.IsWhole) (arg7 : Memref sig .tc .vmem S8x8 .f32) (harg7 : arg7.IsWhole) (arg8 : Memref sig .tc .vmem S8 .f32) (harg8 : arg8.IsWhole) (arg9 : Memref sig .tc .vmem S1x8 .f32) (harg9 : arg9.IsWhole) (arg10 : Memref sig .tc .vmem S1 .f32) (harg10 : arg10.IsWhole) (arg11 : Memref sig .tc .vmem S512x1 .f32) (harg11 : arg11.IsWhole) (arg12 : Memref sig .tc .vmem S512x4 .f32) (harg12 : arg12.IsWhole) (arg13 : Memref sig .tc .vmem S512x4 .f32) (harg13 : arg13.IsWhole) (hc0 : ¬cond0_0 i) (hc1 : ¬cond0_1 i) (x0 : Vec F S512x2048 .f32) (x1 : Vec F S512x2048 .f32) (x2 : Vec F S512x1 .f32) (x3 : Vec F S2048x4 .f32) (x4 : Vec F S4 .f32) (x5 : Vec F S8x8 .f32) (x6 : Vec F S8 .f32) (x7 : Vec F S1x8 .f32) (x8 : Vec F S1 .f32) (xs0 : Vec F S512x4 .f32) (xs1 : Vec F S512x4 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz2, View.ld_unit_zero (S := S2048x4) hz2, View.ld_unit_zero (S := S512x4) hz2, View.ld_unit_zero (S := S512x1) hz2, View.ld_unit_zero (S := S8x8) hz2, View.ld_unit_zero (S := S1x8) hz2, View.ld_unit_zero (S := S4) hz1, View.ld_unit_zero (S := S8) hz1, View.ld_unit_zero (S := S1) hz1]

theorem mid_acc_b (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x4 .f32) (harg5 : arg5.IsWhole) (arg6 : Memref sig .tc .vmem S4 .f32) (harg6 : arg6.IsWhole) (arg7 : Memref sig .tc .vmem S8x8 .f32) (harg7 : arg7.IsWhole) (arg8 : Memref sig .tc .vmem S8 .f32) (harg8 : arg8.IsWhole) (arg9 : Memref sig .tc .vmem S1x8 .f32) (harg9 : arg9.IsWhole) (arg10 : Memref sig .tc .vmem S1 .f32) (harg10 : arg10.IsWhole) (arg11 : Memref sig .tc .vmem S512x1 .f32) (harg11 : arg11.IsWhole) (arg12 : Memref sig .tc .vmem S512x4 .f32) (harg12 : arg12.IsWhole) (arg13 : Memref sig .tc .vmem S512x4 .f32) (harg13 : arg13.IsWhole) (hc0 : ¬cond0_0 i) (hc1 : ¬cond0_1 i) (x0 : Vec F S512x2048 .f32) (x1 : Vec F S512x2048 .f32) (x2 : Vec F S512x1 .f32) (x3 : Vec F S2048x4 .f32) (x4 : Vec F S4 .f32) (x5 : Vec F S8x8 .f32) (x6 : Vec F S8 .f32) (x7 : Vec F S1x8 .f32) (x8 : Vec F S1 .f32) (xs0 : Vec F S512x4 .f32) (xs1 : Vec F S512x4 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay5 x1 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz2, View.ld_unit_zero (S := S2048x4) hz2, View.ld_unit_zero (S := S512x4) hz2, View.ld_unit_zero (S := S512x1) hz2, View.ld_unit_zero (S := S8x8) hz2, View.ld_unit_zero (S := S1x8) hz2, View.ld_unit_zero (S := S4) hz1, View.ld_unit_zero (S := S8) hz1, View.ld_unit_zero (S := S1) hz1]

/-! ## A row block's last point: update, then the small network into the output block -/

theorem last_acc_w (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x4 .f32) (harg5 : arg5.IsWhole) (arg6 : Memref sig .tc .vmem S4 .f32) (harg6 : arg6.IsWhole) (arg7 : Memref sig .tc .vmem S8x8 .f32) (harg7 : arg7.IsWhole) (arg8 : Memref sig .tc .vmem S8 .f32) (harg8 : arg8.IsWhole) (arg9 : Memref sig .tc .vmem S1x8 .f32) (harg9 : arg9.IsWhole) (arg10 : Memref sig .tc .vmem S1 .f32) (harg10 : arg10.IsWhole) (arg11 : Memref sig .tc .vmem S512x1 .f32) (harg11 : arg11.IsWhole) (arg12 : Memref sig .tc .vmem S512x4 .f32) (harg12 : arg12.IsWhole) (arg13 : Memref sig .tc .vmem S512x4 .f32) (harg13 : arg13.IsWhole) (hc0 : ¬cond0_0 i) (hc1 : cond0_1 i) (x0 : Vec F S512x2048 .f32) (x1 : Vec F S512x2048 .f32) (x2 : Vec F S512x1 .f32) (x3 : Vec F S2048x4 .f32) (x4 : Vec F S4 .f32) (x5 : Vec F S8x8 .f32) (x6 : Vec F S8 .f32) (x7 : Vec F S1x8 .f32) (x8 : Vec F S1 .f32) (xs0 : Vec F S512x4 .f32) (xs1 : Vec F S512x4 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz2, View.ld_unit_zero (S := S2048x4) hz2, View.ld_unit_zero (S := S512x4) hz2, View.ld_unit_zero (S := S512x1) hz2, View.ld_unit_zero (S := S8x8) hz2, View.ld_unit_zero (S := S1x8) hz2, View.ld_unit_zero (S := S4) hz1, View.ld_unit_zero (S := S8) hz1, View.ld_unit_zero (S := S1) hz1]

theorem last_acc_b (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x4 .f32) (harg5 : arg5.IsWhole) (arg6 : Memref sig .tc .vmem S4 .f32) (harg6 : arg6.IsWhole) (arg7 : Memref sig .tc .vmem S8x8 .f32) (harg7 : arg7.IsWhole) (arg8 : Memref sig .tc .vmem S8 .f32) (harg8 : arg8.IsWhole) (arg9 : Memref sig .tc .vmem S1x8 .f32) (harg9 : arg9.IsWhole) (arg10 : Memref sig .tc .vmem S1 .f32) (harg10 : arg10.IsWhole) (arg11 : Memref sig .tc .vmem S512x1 .f32) (harg11 : arg11.IsWhole) (arg12 : Memref sig .tc .vmem S512x4 .f32) (harg12 : arg12.IsWhole) (arg13 : Memref sig .tc .vmem S512x4 .f32) (harg13 : arg13.IsWhole) (hc0 : ¬cond0_0 i) (hc1 : cond0_1 i) (x0 : Vec F S512x2048 .f32) (x1 : Vec F S512x2048 .f32) (x2 : Vec F S512x1 .f32) (x3 : Vec F S2048x4 .f32) (x4 : Vec F S4 .f32) (x5 : Vec F S8x8 .f32) (x6 : Vec F S8 .f32) (x7 : Vec F S1x8 .f32) (x8 : Vec F S1 .f32) (xs0 : Vec F S512x4 .f32) (xs1 : Vec F S512x4 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay5 x1 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz2, View.ld_unit_zero (S := S2048x4) hz2, View.ld_unit_zero (S := S512x4) hz2, View.ld_unit_zero (S := S512x1) hz2, View.ld_unit_zero (S := S8x8) hz2, View.ld_unit_zero (S := S1x8) hz2, View.ld_unit_zero (S := S4) hz1, View.ld_unit_zero (S := S8) hz1, View.ld_unit_zero (S := S1) hz1]

theorem last_out (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x4 .f32) (harg5 : arg5.IsWhole) (arg6 : Memref sig .tc .vmem S4 .f32) (harg6 : arg6.IsWhole) (arg7 : Memref sig .tc .vmem S8x8 .f32) (harg7 : arg7.IsWhole) (arg8 : Memref sig .tc .vmem S8 .f32) (harg8 : arg8.IsWhole) (arg9 : Memref sig .tc .vmem S1x8 .f32) (harg9 : arg9.IsWhole) (arg10 : Memref sig .tc .vmem S1 .f32) (harg10 : arg10.IsWhole) (arg11 : Memref sig .tc .vmem S512x1 .f32) (harg11 : arg11.IsWhole) (arg12 : Memref sig .tc .vmem S512x4 .f32) (harg12 : arg12.IsWhole) (arg13 : Memref sig .tc .vmem S512x4 .f32) (harg13 : arg13.IsWhole) (hc0 : ¬cond0_0 i) (hc1 : cond0_1 i) (x0 : Vec F S512x2048 .f32) (x1 : Vec F S512x2048 .f32) (x2 : Vec F S512x1 .f32) (x3 : Vec F S2048x4 .f32) (x4 : Vec F S4 .f32) (x5 : Vec F S8x8 .f32) (x6 : Vec F S8 .f32) (x7 : Vec F S1x8 .f32) (x8 : Vec F S1 .f32) (xs0 : Vec F S512x4 .f32) (xs1 : Vec F S512x4 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay6 (k0_pay7 (k0_pay4 x0 x3 xs0) x4 (k0_pay5 x1 x3 xs1) x4 x2 x5 x6) (k0_pay8 x7) x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz2]
  simp only [View.readCov_unit_zero (S := S512x4) _ hz2, View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz2, View.ld_unit_zero (S := S2048x4) hz2, View.ld_unit_zero (S := S512x4) hz2, View.ld_unit_zero (S := S512x1) hz2, View.ld_unit_zero (S := S8x8) hz2, View.ld_unit_zero (S := S1x8) hz2, View.ld_unit_zero (S := S4) hz1, View.ld_unit_zero (S := S8) hz1, View.ld_unit_zero (S := S1) hz1]

end Cert.KernelIdeal.Pieces

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KPay.lean ====
/-
  What the kernel's stores hold, read at an index on the extended reals.

  The accumulator update adds to the running sum at (p, o) the block's contribution
  ∑ j, x[p, j] * w[j, o]  (a product into a zero accumulator; the narrowing casts are the identity).
  The reset stores zero.  The last point's result is the row function of the specification at the
  feature sums  acc[p, ·] + ft_b : the two orders laid side by side, blended by the row's stm entry,
  clipped, contracted with l1_w read transposed (so l1_w is indexed [o, i]), biased, clipped, and
  contracted with l2_w read transposed, biased.
-/
import proofs.«156854_j5832565588369_1_alg».proof.Proof.Gen.KernelIdeal.Skeleton
import proofs.«156854_j5832565588369_1_alg».proof.Proof.LibDot2
import proofs.«156854_j5832565588369_1_alg».proof.Proof.Layout

noncomputable section

open scoped BigOperators

namespace Cert.KernelIdeal.Pay

open Cert.KernelIdeal Cert.KernelIdeal.Gen Idealize.ShloMosaic Idealize.ShloMosaic.ValueIdx Cert.Nnue

/-- The reset value is zero everywhere. -/
theorem pay1_apply (j : S512x4.Idx) : k0_pay1 (F := Ideal) j = 0 := by
  unfold k0_pay1
  simp only [shapeCast_self]
  exact Ideal.ofBits_zero_f32

theorem pay2_apply (j : S512x4.Idx) : k0_pay2 (F := Ideal) j = 0 := by
  unfold k0_pay2
  simp only [shapeCast_self]
  exact Ideal.ofBits_zero_f32

/-- The first accumulator's update at (p, o). -/
theorem pay4_apply (x : Vec Ideal S512x2048 .f32) (w : Vec Ideal S2048x4 .f32) (acc : Vec Ideal S512x4 .f32)
    (p : Fin 512) (o : Fin 4) :
    k0_pay4 (F := Ideal) x w acc (ix2 p o) = acc (ix2 p o) + ∑ j : Fin 2048, x (ix2 p j) * w (ix2 j o) := by
  unfold k0_pay4 k0_pay3
  simp only [shapeCast_self]
  refine congrArg (acc (ix2 p o) + ·) ?_
  exact Dot2.matmul_zero_mm_apply dot_S512x2048_S2048x4_S512x4_1_0_0_1_n_n_wf none _ _ p o

/-- The second accumulator's update at (p, o). -/
theorem pay5_apply (x : Vec Ideal S512x2048 .f32) (w : Vec Ideal S2048x4 .f32) (acc : Vec Ideal S512x4 .f32)
    (p : Fin 512) (o : Fin 4) :
    k0_pay5 (F := Ideal) x w acc (ix2 p o) = acc (ix2 p o) + ∑ j : Fin 2048, x (ix2 p j) * w (ix2 j o) := by
  unfold k0_pay5 k0_pay3
  simp only [shapeCast_self]
  refine congrArg (acc (ix2 p o) + ·) ?_
  exact Dot2.matmul_zero_mm_apply dot_S512x2048_S2048x4_S512x4_1_0_0_1_n_n_wf none _ _ p o

/-- The output weights read transposed: entry (i, 0) is l2_w[0, i]. -/
theorem pay8_apply (l2w : Vec Ideal S1x8 .f32) (i : Fin 8) :
    k0_pay8 (F := Ideal) l2w (ix2 i (0 : Fin 1)) = l2w (ix2 (0 : Fin 1) i) := by
  unfold k0_pay8
  exact transpose_ix2_apply _ _ i 0

/-- The feature sums with their bias, as the last point forms them: the accumulator plus the bias row. -/
def featRows (acc : Vec Ideal S512x4 .f32) (ftb : Vec Ideal S4 .f32) : FVec Ideal S512x4 .f32 :=
  addf acc (broadcastTo S512x4 (shapeCast S1x4 ftb shapeCasts_S4_S1x4) broadcasts_S1x4_S512x4)

theorem featRows_apply (acc : Vec Ideal S512x4 .f32) (ftb : Vec Ideal S4 .f32) (p : Fin 512) (q : Fin 4) :
    featRows acc ftb (ix2 p q) = acc (ix2 p q) + ftb (ix1 q) := by
  unfold featRows
  rw [addf_apply, row_bcast_apply]

/-- The blended, clipped hidden inputs [512, 8]. -/
def hiddenRows (w b : FVec Ideal S512x4 .f32) (stm : Vec Ideal S512x1 .f32) : FVec Ideal S512x8 .f32 :=
  minimumf (broadcast S512x8 (FloatOps.ofBits .f32 0x3F800000#32))
    (maximumf (broadcast S512x8 (FloatOps.ofBits .f32 0x00000000#32))
      (addf
        (mulf (broadcastTo S512x8 stm broadcasts_S512x1_S512x8)
          (concatenate S512x8 1 [⟨S512x4, w⟩, ⟨S512x4, b⟩] concatenates_S512x4_S512x4_S512x8_d1))
        (mulf (broadcastTo S512x8 (subf (broadcast S512x1 (FloatOps.ofBits .f32 0x3F800000#32)) stm) broadcasts_S512x1_S512x8)
          (concatenate S512x8 1 [⟨S512x4, b⟩, ⟨S512x4, w⟩] concatenates_S512x4_S512x4_S512x8_d1))))

theorem hiddenRows_apply (w b : FVec Ideal S512x4 .f32) (stm : Vec Ideal S512x1 .f32) (p : Fin 512) (c : Fin 8) :
    hiddenRows w b stm (ix2 p c)
      = clip01 (mix (fun q => w (ix2 p q)) (fun q => b (ix2 p q)) (stm (ix2 p (0 : Fin 1))) c) := by
  unfold hiddenRows
  rw [minimumf_apply, maximumf_apply, addf_apply, mulf_apply, mulf_apply, broadcastTo_a1_ab_apply,
    broadcastTo_a1_ab_apply, concat_cols_apply, concat_cols_apply]
  rfl

/-- The first layer with its bias, clipped: [512, 8]. -/
def layerRows (h : FVec Ideal S512x8 .f32) (l1w : Vec Ideal S8x8 .f32) (l1b : Vec Ideal S8 .f32) : FVec Ideal S512x8 .f32 :=
  minimumf (broadcast S512x8 (FloatOps.ofBits .f32 0x3F800000#32))
    (maximumf (broadcast S512x8 (FloatOps.ofBits .f32 0x00000000#32))
      (addf
        (matmul dot_S512x8_S8x8_S512x8_1_0_0_1_n_n none (truncf .bf16 h bitsLt_bf16_f32)
          (transpose S8x8 [1, 0] (truncf .bf16 l1w bitsLt_bf16_f32) transposes_S8x8_p1_0_S8x8) (constant S512x8 .f32 0x00000000#32))
        (broadcastTo S512x8 (shapeCast S1x8 l1b shapeCasts_S8_S1x8) broadcasts_S1x8_S512x8)))

theorem layerRows_apply (h : FVec Ideal S512x8 .f32) (l1w : Vec Ideal S8x8 .f32) (l1b : Vec Ideal S8 .f32)
    (p : Fin 512) (o : Fin 8) :
    layerRows h l1w l1b (ix2 p o)
      = clip01 ((∑ i : Fin 8, h (ix2 p i) * l1w (ix2 o i)) + l1b (ix1 o)) := by
  unfold layerRows
  rw [minimumf_apply, maximumf_apply, addf_apply, row_bcast_apply]
  have hm : matmul dot_S512x8_S8x8_S512x8_1_0_0_1_n_n none (truncf .bf16 h bitsLt_bf16_f32)
      (transpose S8x8 [1, 0] (truncf .bf16 l1w bitsLt_bf16_f32) transposes_S8x8_p1_0_S8x8) (constant S512x8 .f32 0x00000000#32) (ix2 p o)
      = ∑ i : Fin 8, h (ix2 p i) * l1w (ix2 o i) := by
    refine (Dot2.matmul_zero_mm_apply dot_S512x8_S8x8_S512x8_1_0_0_1_n_n_wf none _ _ p o).trans ?_
    refine Finset.sum_congr rfl fun i _ => ?_
    rw [transpose_ix2_apply]
    rfl
  rw [hm]
  rfl

/-- The clipped first layer the last point hands to the output product is the specification's. -/
theorem pay7_apply (wacc : Vec Ideal S512x4 .f32) (ftb : Vec Ideal S4 .f32) (bacc : Vec Ideal S512x4 .f32)
    (ftb' : Vec Ideal S4 .f32) (stm : Vec Ideal S512x1 .f32) (l1w : Vec Ideal S8x8 .f32) (l1b : Vec Ideal S8 .f32)
    (p : Fin 512) (o : Fin 8) :
    k0_pay7 (F := Ideal) wacc ftb bacc ftb' stm l1w l1b (ix2 p o)
      = clip01 (layer1 (fun q => wacc (ix2 p q) + ftb (ix1 q)) (fun q => bacc (ix2 p q) + ftb' (ix1 q))
          (stm (ix2 p (0 : Fin 1))) (fun o i => l1w (ix2 o i)) (fun o => l1b (ix1 o)) o) := by
  show layerRows (hiddenRows (featRows wacc ftb) (featRows bacc ftb') stm) l1w l1b (ix2 p o) = _
  rw [layerRows_apply]
  simp only [hiddenRows_apply, featRows_apply]
  rfl

/-- The last point's stored block at row p: the specification's row function of the two accumulators'
    rows plus the bias, the row's stm entry, and the two small layers' weights and biases. -/
theorem tail_apply (wacc : Vec Ideal S512x4 .f32) (bacc : Vec Ideal S512x4 .f32) (ftb : Vec Ideal S4 .f32)
    (stm : Vec Ideal S512x1 .f32) (l1w : Vec Ideal S8x8 .f32) (l1b : Vec Ideal S8 .f32)
    (l2w : Vec Ideal S1x8 .f32) (l2b : Vec Ideal S1 .f32) (p : Fin 512) :
    k0_pay6 (F := Ideal) (k0_pay7 wacc ftb bacc ftb stm l1w l1b) (k0_pay8 l2w) l2b (ix2 p (0 : Fin 1))
      = head (fun q => wacc (ix2 p q) + ftb (ix1 q)) (fun q => bacc (ix2 p q) + ftb (ix1 q))
          (stm (ix2 p (0 : Fin 1))) (fun o i => l1w (ix2 o i)) (fun o => l1b (ix1 o))
          (fun i => l2w (ix2 (0 : Fin 1) i)) (l2b (ix1 (0 : Fin 1))) := by
  unfold k0_pay6
  rw [addf_apply, row_bcast_apply]
  have hm : matmul dot_S512x8_S8x1_S512x1_1_0_0_1_n_n none (k0_pay7 (F := Ideal) wacc ftb bacc ftb stm l1w l1b)
      (k0_pay8 l2w) (constant S512x1 .f32 0x00000000#32) (ix2 p (0 : Fin 1))
      = ∑ i : Fin 8, k0_pay7 (F := Ideal) wacc ftb bacc ftb stm l1w l1b (ix2 p i) * k0_pay8 (F := Ideal) l2w (ix2 i (0 : Fin 1)) :=
    Dot2.matmul_zero_mm_apply dot_S512x8_S8x1_S512x1_1_0_0_1_n_n_wf none _ _ p 0
  rw [hm]
  simp only [pay7_apply, pay8_apply]
  rfl

end Cert.KernelIdeal.Pay

end
-- ==== Proof.KAcc.lean ====
/-
  The two accumulators, point by point.

  Point t works on row block t / 20 and feature block t mod 20.  Its two feature windows are rows
  512 (t / 20) + p and features 2048 (t mod 20) + j of the two feature arrays; its weight window is rows
  2048 (t mod 20) + j of the transposed weight array, that is column 2048 (t mod 20) + j of ft_w; the
  stm window is the row block's column; the five small arrays come whole.
  So each point adds, to the accumulator entry (p, o), the block's share of
  ∑ f, x[512 (t / 20) + p, f] * ft_w[o, f], starting from zero at the row block's first point:
  after point t the entry is that sum over the first (t mod 20) + 1 feature blocks.
-/
import proofs.«156854_j5832565588369_1_alg».proof.Proof.Gen.KernelIdeal.Value
import proofs.«156854_j5832565588369_1_alg».proof.Proof.KPieces
import proofs.«156854_j5832565588369_1_alg».proof.Proof.KPay
import Idealize.ShloMosaic.Lib.Pipeline.Value
import Idealize.ShloMosaic.Lib.ValueLayout
import Idealize.ShloMosaic.Lib.StableHlo.Run

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx Cert.Nnue

variable (m : (ℓ : Loc nD τ sig) → Buf (Elt Ideal) ℓ)

theorem hN : cfg0.N = 160 := N_0

/-- The block index of every window at every point, decided once over the 160 points. -/
theorem idx_facts : ∀ t : Fin cfg0.N,
    win0_0.index t (0 : Fin 2) = t.val / 20 ∧ win0_0.index t (1 : Fin 2) = t.val % 20
    ∧ win0_1.index t (0 : Fin 2) = t.val / 20 ∧ win0_1.index t (1 : Fin 2) = t.val % 20
    ∧ win0_2.index t (0 : Fin 2) = t.val / 20 ∧ win0_2.index t (1 : Fin 2) = 0
    ∧ win0_3.index t (0 : Fin 2) = t.val % 20 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val / 20 ∧ win0_9.index t (1 : Fin 2) = 0 :=
  (by decide +kernel : ∀ t : Fin grid0.N, _)

/-- Row p of point t's row block, in the whole arrays. -/
def rowOf (t : Fin cfg0.N) (p : Fin 512) : Fin 4096 :=
  ⟨512 * (t.val / 20) + p.val, by have := t.isLt; have := hN; have := p.isLt; omega⟩

theorem kLt (t : Fin cfg0.N) : t.val % 20 < 20 := Nat.mod_lt _ (by decide)

/-- The two feature arrays and the weight array as launched, and the three windows cut along the features
    at point t, each at its literal shape. -/
abbrev wfts (c : Dev nD) : S4096x40960.Idx → EReal := m ((c : Thread nD τ).loc main_arg0)
abbrev bfts (c : Dev nD) : S4096x40960.Idx → EReal := m ((c : Thread nD τ).loc main_arg1)
abbrev ftw (c : Dev nD) : S4x40960.Idx → EReal := m ((c : Thread nD τ).loc main_arg3)
abbrev xw (c : Dev nD) (t : Fin cfg0.N) : Vec Ideal S512x2048 .f32 := iblk m c 0 t
abbrev xb (c : Dev nD) (t : Fin cfg0.N) : Vec Ideal S512x2048 .f32 := iblk m c 1 t
abbrev wT (c : Dev nD) (t : Fin cfg0.N) : Vec Ideal S2048x4 .f32 := iblk m c 3 t

/-! ## The windows' blocks read in the whole arrays -/

/-- The first feature window. -/
theorem wfts_blk (c : Dev nD) (t : Fin cfg0.N) (p : Fin 512) (j : Fin 2048) :
    xw m c t (ix2 p j) = wfts m c (ix2 (rowOf t p) (feature (t.val % 20) (kLt t) j)) := by
  obtain ⟨e0, e1, -⟩ := idx_facts t
  unfold xw iblk
  rw [View.read_apply]
  show V m c main_arg0 (((cfg0.win 0).blk t).view.emb (ix2 p j)) = _
  rw [V_main_arg0]
  refine congrArg (m ((c : Thread nD τ).loc main_arg0)) (funext fun a => Fin.ext ?_)
  match a with
  | ⟨0, _⟩ => show win0_0.index t (0 : Fin 2) * 512 + 1 * p.val = 512 * (t.val / 20) + p.val; rw [e0]; omega
  | ⟨1, _⟩ => show win0_0.index t (1 : Fin 2) * 2048 + 1 * j.val = 2048 * (t.val % 20) + j.val; rw [e1]; omega

/-- The second feature window. -/
theorem bfts_blk (c : Dev nD) (t : Fin cfg0.N) (p : Fin 512) (j : Fin 2048) :
    xb m c t (ix2 p j) = bfts m c (ix2 (rowOf t p) (feature (t.val % 20) (kLt t) j)) := by
  obtain ⟨-, -, e0, e1, -⟩ := idx_facts t
  unfold xb iblk
  rw [View.read_apply]
  show V m c main_arg1 (((cfg0.win 1).blk t).view.emb (ix2 p j)) = _
  rw [V_main_arg1]
  refine congrArg (m ((c : Thread nD τ).loc main_arg1)) (funext fun a => Fin.ext ?_)
  match a with
  | ⟨0, _⟩ => show win0_1.index t (0 : Fin 2) * 512 + 1 * p.val = 512 * (t.val / 20) + p.val; rw [e0]; omega
  | ⟨1, _⟩ => show win0_1.index t (1 : Fin 2) * 2048 + 1 * j.val = 2048 * (t.val % 20) + j.val; rw [e1]; omega

/-- The transposed weights as the region finds them: the host's transpose of ft_w. -/
theorem ftwT_eq (c : Dev nD) :
    (V m c main_v0 : S40960x4.Idx → EReal)
      = transpose S40960x4 [1, 0] (m ((c : Thread nD τ).loc main_arg3)) transposes_S4x40960_S40960x4_1_0 := by
  dsimp only [V, hostOps0]
  after_results

/-- The weight window: feature j of the block against weight row o is ft_w[o, 2048 (t mod 20) + j]. -/
theorem ftw_blk (c : Dev nD) (t : Fin cfg0.N) (j : Fin 2048) (o : Fin 4) :
    wT m c t (ix2 j o) = ftw m c (ix2 o (feature (t.val % 20) (kLt t) j)) := by
  obtain ⟨-, -, -, -, -, -, e0, e1, -⟩ := idx_facts t
  unfold wT iblk
  rw [View.read_apply]
  show V m c main_v0 (((cfg0.win 3).blk t).view.emb (ix2 j o)) = _
  have he : ((cfg0.win 3).blk t).view.emb (ix2 j o) = ix2 (feature (t.val % 20) (kLt t) j) o := by
    funext a; apply Fin.ext
    match a with
    | ⟨0, _⟩ => show win0_3.index t (0 : Fin 2) * 2048 + 1 * j.val = 2048 * (t.val % 20) + j.val; rw [e0]; omega
    | ⟨1, _⟩ => show win0_3.index t (1 : Fin 2) * 4 + 1 * o.val = o.val; rw [e1]; omega
  rw [he, ftwT_eq, transpose_ix2_apply]

/-! ## The summand of a point's row, and a block's share of it -/

/-- The products summed for entry (p, o) of point t's row block, first feature array. -/
def gW (c : Dev nD) (t : Fin cfg0.N) (p : Fin 512) (o : Fin 4) : Fin 40960 → EReal := fun f =>
  wfts m c (ix2 (rowOf t p) f) * ftw m c (ix2 o f)

/-- The same for the second feature array. -/
def gB (c : Dev nD) (t : Fin cfg0.N) (p : Fin 512) (o : Fin 4) : Fin 40960 → EReal := fun f =>
  bfts m c (ix2 (rowOf t p) f) * ftw m c (ix2 o f)

theorem shareW (c : Dev nD) (t : Fin cfg0.N) (p : Fin 512) (o : Fin 4) :
    ∑ j : Fin 2048, xw m c t (ix2 p j) * wT m c t (ix2 j o)
      = ∑ j : Fin 2048, gW m c t p o (feature (t.val % 20) (kLt t) j) :=
  Finset.sum_congr rfl fun j _ => by rw [wfts_blk, ftw_blk]; rfl

theorem shareB (c : Dev nD) (t : Fin cfg0.N) (p : Fin 512) (o : Fin 4) :
    ∑ j : Fin 2048, xb m c t (ix2 p j) * wT m c t (ix2 j o)
      = ∑ j : Fin 2048, gB m c t p o (feature (t.val % 20) (kLt t) j) :=
  Finset.sum_congr rfl fun j _ => by rw [bfts_blk, ftw_blk]; rfl

/-- Within a row block the summand does not move from one point to the next. -/
theorem rowOf_succ (n : ℕ) (hn : n + 1 < cfg0.N) (h0 : (n + 1) % 20 ≠ 0) (p : Fin 512) :
    rowOf ⟨n, Nat.lt_of_succ_lt hn⟩ p = rowOf ⟨n + 1, hn⟩ p :=
  Fin.ext (by show 512 * (n / 20) + p.val = 512 * ((n + 1) / 20) + p.val; omega)

/-! ## What the frame's point-by-point contents are, case by case -/

theorem accW_first (c : Dev nD) (t : Fin cfg0.N) (h0 : t.val % 20 = 0) (h1 : ¬t.val % 20 = 19) :
    (outsAt0 m c t.val t.isLt).2.1 = k0_pay4 (iblk m c 0 t) (iblk m c 3 t) (k0_pay1 (F := Ideal)) := by
  rw [outsAt0_A m c t h0 h1]
  dsimp only
  exact Pieces.first_acc_w (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

theorem accB_first (c : Dev nD) (t : Fin cfg0.N) (h0 : t.val % 20 = 0) (h1 : ¬t.val % 20 = 19) :
    (outsAt0 m c t.val t.isLt).2.2 = k0_pay5 (iblk m c 1 t) (iblk m c 3 t) (k0_pay2 (F := Ideal)) := by
  rw [outsAt0_A m c t h0 h1]
  dsimp only
  exact Pieces.first_acc_b (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

theorem accW_mid (c : Dev nD) (t : Fin cfg0.N) (h0 : ¬t.val % 20 = 0) (h1 : ¬t.val % 20 = 19) :
    (outsAt0 m c t.val t.isLt).2.1
      = k0_pay4 (iblk m c 0 t) (iblk m c 3 t) (outsAt0 m c (t.val - 1) (Nat.lt_of_le_of_lt (Nat.sub_le _ _) t.isLt)).2.1 := by
  rw [outsAt0_B m c t h0 h1]
  dsimp only
  exact Pieces.mid_acc_w (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

theorem accB_mid (c : Dev nD) (t : Fin cfg0.N) (h0 : ¬t.val % 20 = 0) (h1 : ¬t.val % 20 = 19) :
    (outsAt0 m c t.val t.isLt).2.2
      = k0_pay5 (iblk m c 1 t) (iblk m c 3 t) (outsAt0 m c (t.val - 1) (Nat.lt_of_le_of_lt (Nat.sub_le _ _) t.isLt)).2.2 := by
  rw [outsAt0_B m c t h0 h1]
  dsimp only
  exact Pieces.mid_acc_b (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

theorem accW_last (c : Dev nD) (t : Fin cfg0.N) (h0 : ¬t.val % 20 = 0) (h1 : t.val % 20 = 19) :
    (outsAt0 m c t.val t.isLt).2.1
      = k0_pay4 (iblk m c 0 t) (iblk m c 3 t) (outsAt0 m c (t.val - 1) (Nat.lt_of_le_of_lt (Nat.sub_le _ _) t.isLt)).2.1 := by
  rw [outsAt0_C m c t h0 h1]
  dsimp only
  exact Pieces.last_acc_w (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

theorem accB_last (c : Dev nD) (t : Fin cfg0.N) (h0 : ¬t.val % 20 = 0) (h1 : t.val % 20 = 19) :
    (outsAt0 m c t.val t.isLt).2.2
      = k0_pay5 (iblk m c 1 t) (iblk m c 3 t) (outsAt0 m c (t.val - 1) (Nat.lt_of_le_of_lt (Nat.sub_le _ _) t.isLt)).2.2 := by
  rw [outsAt0_C m c t h0 h1]
  dsimp only
  exact Pieces.last_acc_b (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

/-- The last point's output block, over the two accumulators as that point leaves them. -/
theorem out_last (c : Dev nD) (t : Fin cfg0.N) (h0 : ¬t.val % 20 = 0) (h1 : t.val % 20 = 19) :
    (outsAt0 m c t.val t.isLt).1
      = k0_pay6 (k0_pay7 ((outsAt0 m c t.val t.isLt).2.1) (iblk m c 4 t) ((outsAt0 m c t.val t.isLt).2.2) (iblk m c 4 t)
          (iblk m c 2 t) (iblk m c 5 t) (iblk m c 6 t)) (k0_pay8 (iblk m c 7 t)) (iblk m c 8 t) := by
  rw [accW_last m c t h0 h1, accB_last m c t h0 h1, outsAt0_C m c t h0 h1]
  dsimp only
  exact Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

/-! ## The running sums -/

/-- After point n the first accumulator's entry (p, o) is the sum over the first (n mod 20) + 1 blocks. -/
theorem accW_eq (c : Dev nD) (p : Fin 512) (o : Fin 4) (n : ℕ) (hn : n < cfg0.N) :
    (outsAt0 m c n hn).2.1 (ix2 p o) = pre (gW m c ⟨n, hn⟩ p o) (n % 20 + 1) := by
  have key := running_sum (fun n hn => (outsAt0 m c n (lt_of_lt_of_eq hn hN.symm)).2.1 (ix2 p o))
    (fun n hn => gW m c ⟨n, lt_of_lt_of_eq hn hN.symm⟩ p o)
    (fun n hn h0 => by
      have h1 : ¬n % 20 = 19 := by omega
      show (outsAt0 m c n _).2.1 (ix2 p o) = _
      rw [show (outsAt0 m c n (lt_of_lt_of_eq hn hN.symm)).2.1 = _ from accW_first m c ⟨n, lt_of_lt_of_eq hn hN.symm⟩ h0 h1,
        Pay.pay4_apply, Pay.pay1_apply, shareW])
    (fun n hn h0 => by
      show (outsAt0 m c (n + 1) _).2.1 (ix2 p o) = (outsAt0 m c n _).2.1 (ix2 p o) + _
      by_cases h1 : (n + 1) % 20 = 19
      · rw [show (outsAt0 m c (n + 1) (lt_of_lt_of_eq hn hN.symm)).2.1 = _ from accW_last m c ⟨n + 1, lt_of_lt_of_eq hn hN.symm⟩ h0 h1,
          Pay.pay4_apply, shareW]
        rfl
      · rw [show (outsAt0 m c (n + 1) (lt_of_lt_of_eq hn hN.symm)).2.1 = _ from accW_mid m c ⟨n + 1, lt_of_lt_of_eq hn hN.symm⟩ h0 h1,
          Pay.pay4_apply, shareW]
        rfl)
    (fun n hn h0 => by
      show gW m c _ p o = gW m c _ p o
      unfold gW
      rw [rowOf_succ n (lt_of_lt_of_eq hn hN.symm) h0 p])
  exact key n (lt_of_lt_of_eq hn hN)

/-- The same for the second accumulator. -/
theorem accB_eq (c : Dev nD) (p : Fin 512) (o : Fin 4) (n : ℕ) (hn : n < cfg0.N) :
    (outsAt0 m c n hn).2.2 (ix2 p o) = pre (gB m c ⟨n, hn⟩ p o) (n % 20 + 1) := by
  have key := running_sum (fun n hn => (outsAt0 m c n (lt_of_lt_of_eq hn hN.symm)).2.2 (ix2 p o))
    (fun n hn => gB m c ⟨n, lt_of_lt_of_eq hn hN.symm⟩ p o)
    (fun n hn h0 => by
      have h1 : ¬n % 20 = 19 := by omega
      show (outsAt0 m c n _).2.2 (ix2 p o) = _
      rw [show (outsAt0 m c n (lt_of_lt_of_eq hn hN.symm)).2.2 = _ from accB_first m c ⟨n, lt_of_lt_of_eq hn hN.symm⟩ h0 h1,
        Pay.pay5_apply, Pay.pay2_apply, shareB])
    (fun n hn h0 => by
      show (outsAt0 m c (n + 1) _).2.2 (ix2 p o) = (outsAt0 m c n _).2.2 (ix2 p o) + _
      by_cases h1 : (n + 1) % 20 = 19
      · rw [show (outsAt0 m c (n + 1) (lt_of_lt_of_eq hn hN.symm)).2.2 = _ from accB_last m c ⟨n + 1, lt_of_lt_of_eq hn hN.symm⟩ h0 h1,
          Pay.pay5_apply, shareB]
        rfl
      · rw [show (outsAt0 m c (n + 1) (lt_of_lt_of_eq hn hN.symm)).2.2 = _ from accB_mid m c ⟨n + 1, lt_of_lt_of_eq hn hN.symm⟩ h0 h1,
          Pay.pay5_apply, shareB]
        rfl)
    (fun n hn h0 => by
      show gB m c _ p o = gB m c _ p o
      unfold gB
      rw [rowOf_succ n (lt_of_lt_of_eq hn hN.symm) h0 p])
  exact key n (lt_of_lt_of_eq hn hN)

end Cert.KernelIdeal.Acc

end
-- ==== Proof.KFinal.lean ====
/-
  From the last point of each row block to the whole result array.

  The five small arrays and the row block's stm column reach the body whole, so at a row block's last
  point (t mod 20 = 19) the two accumulators hold the full feature sums of rows 512 (t / 20) + p, and
  the stored output block is the specification's row function at those rows.  Output block t / 20 is
  written back exactly at those eight points; the eight blocks tile the 4096 rows, so the result array
  is the specification's function of the nine argument arrays.
-/
import proofs.«156854_j5832565588369_1_alg».proof.Proof.KAcc

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.Nnue Cert.KernelIdeal.Acc
open Idealize.ShloMosaic.Pipeline (Dat)

variable (m : (ℓ : Loc nD τ sig) → Buf (Elt Ideal) ℓ) (ρ : Dev nD → PrngReg)

/-- The specification at this program's argument arrays. -/
abbrev Gk (c : Dev nD) : S4096x1.Idx → EReal :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))

/-! ## The windows that are not cut along the features -/

/-- The stm window: the row block's column. -/
theorem stm_blk (c : Dev nD) (t : Fin cfg0.N) (p : Fin 512) :
    (iblk m c 2 t : Vec Ideal S512x1 .f32) (ix2 p (0 : Fin 1)) = m ((c : Thread nD τ).loc main_arg2) (ix2 (rowOf t p) (0 : Fin 1)) := by
  obtain ⟨-, -, -, -, e0, e1, -⟩ := idx_facts t
  unfold iblk
  rw [View.read_apply]
  show V m c main_arg2 (((cfg0.win 2).blk t).view.emb (ix2 p (0 : Fin 1))) = _
  rw [V_main_arg2]
  refine congrArg (m ((c : Thread nD τ).loc main_arg2)) (funext fun a => Fin.ext ?_)
  match a with
  | ⟨0, _⟩ => show win0_2.index t (0 : Fin 2) * 512 + 1 * p.val = 512 * (t.val / 20) + p.val; rw [e0]; omega
  | ⟨1, _⟩ => show win0_2.index t (1 : Fin 2) * 1 + 1 * 0 = 0; rw [e1]

/-- The feature bias comes whole. -/
theorem ftb_blk (c : Dev nD) (t : Fin cfg0.N) : (iblk m c 4 t : Vec Ideal S4 .f32) = m ((c : Thread nD τ).loc main_arg4) := by
  obtain ⟨-, -, -, -, -, -, -, -, e, -⟩ := idx_facts t
  funext y
  unfold iblk
  rw [View.read_apply]
  show V m c main_arg4 (((cfg0.win 4).blk t).view.emb y) = _
  rw [V_main_arg4]
  refine congrArg (m ((c : Thread nD τ).loc main_arg4)) (funext fun a => Fin.ext ?_)
  match a with
  | ⟨0, _⟩ => show win0_4.index t (0 : Fin 1) * 4 + 1 * (y 0).val = (y 0).val; rw [e]; omega

/-- The first layer's weights come whole. -/
theorem l1w_blk (c : Dev nD) (t : Fin cfg0.N) : (iblk m c 5 t : Vec Ideal S8x8 .f32) = m ((c : Thread nD τ).loc main_arg5) := by
  obtain ⟨-, -, -, -, -, -, -, -, -, e0, e1, -⟩ := idx_facts t
  funext y
  unfold iblk
  rw [View.read_apply]
  show V m c main_arg5 (((cfg0.win 5).blk t).view.emb y) = _
  rw [V_main_arg5]
  refine congrArg (m ((c : Thread nD τ).loc main_arg5)) (funext fun a => Fin.ext ?_)
  match a with
  | ⟨0, _⟩ => show win0_5.index t (0 : Fin 2) * 8 + 1 * (y 0).val = (y 0).val; rw [e0]; omega
  | ⟨1, _⟩ => show win0_5.index t (1 : Fin 2) * 8 + 1 * (y 1).val = (y 1).val; rw [e1]; omega

/-- The first layer's bias comes whole. -/
theorem l1b_blk (c : Dev nD) (t : Fin cfg0.N) : (iblk m c 6 t : Vec Ideal S8 .f32) = m ((c : Thread nD τ).loc main_arg6) := by
  obtain ⟨-, -, -, -, -, -, -, -, -, -, -, e, -⟩ := idx_facts t
  funext y
  unfold iblk
  rw [View.read_apply]
  show V m c main_arg6 (((cfg0.win 6).blk t).view.emb y) = _
  rw [V_main_arg6]
  refine congrArg (m ((c : Thread nD τ).loc main_arg6)) (funext fun a => Fin.ext ?_)
  match a with
  | ⟨0, _⟩ => show win0_6.index t (0 : Fin 1) * 8 + 1 * (y 0).val = (y 0).val; rw [e]; omega

/-- The output weights come whole. -/
theorem l2w_blk (c : Dev nD) (t : Fin cfg0.N) : (iblk m c 7 t : Vec Ideal S1x8 .f32) = m ((c : Thread nD τ).loc main_arg7) := by
  obtain ⟨-, -, -, -, -, -, -, -, -, -, -, -, e0, e1, -⟩ := idx_facts t
  funext y
  unfold iblk
  rw [View.read_apply]
  show V m c main_arg7 (((cfg0.win 7).blk t).view.emb y) = _
  rw [V_main_arg7]
  refine congrArg (m ((c : Thread nD τ).loc main_arg7)) (funext fun a => Fin.ext ?_)
  match a with
  | ⟨0, _⟩ => show win0_7.index t (0 : Fin 2) * 1 + 1 * (y 0).val = (y 0).val; rw [e0]; omega
  | ⟨1, _⟩ => show win0_7.index t (1 : Fin 2) * 8 + 1 * (y 1).val = (y 1).val; rw [e1]; omega

/-- The output bias comes whole. -/
theorem l2b_blk (c : Dev nD) (t : Fin cfg0.N) : (iblk m c 8 t : Vec Ideal S1 .f32) = m ((c : Thread nD τ).loc main_arg8) := by
  obtain ⟨-, -, -, -, -, -, -, -, -, -, -, -, -, -, e, -⟩ := idx_facts t
  funext y
  unfold iblk
  rw [View.read_apply]
  show V m c main_arg8 (((cfg0.win 8).blk t).view.emb y) = _
  rw [V_main_arg8]
  refine congrArg (m ((c : Thread nD τ).loc main_arg8)) (funext fun a => Fin.ext ?_)
  match a with
  | ⟨0, _⟩ => show win0_8.index t (0 : Fin 1) * 1 + 1 * (y 0).val = (y 0).val; rw [e]; omega

/-! ## The last point of a row block -/

/-- Equal arguments, equal rows. -/
theorem head_congr {w w' b b' : Fin 4 → EReal} {s s' : EReal} {l1w l1w' : Fin 8 → Fin 8 → EReal}
    {l1b l1b' l2w l2w' : Fin 8 → EReal} {l2b l2b' : EReal}
    (hw : w = w') (hb : b = b') (hs : s = s') (h1 : l1w = l1w') (h2 : l1b = l1b') (h3 : l2w = l2w') (h4 : l2b = l2b') :
    head w b s l1w l1b l2w l2b = head w' b' s' l1w' l1b' l2w' l2b' := by
  subst hw hb hs h1 h2 h3 h4
  rfl

/-- At a row block's last point the stored output block, row p, is the specification at row 512 (t / 20) + p. -/
theorem out_row (c : Dev nD) (t : Fin cfg0.N) (h1 : t.val % 20 = 19) (p : Fin 512) :
    ((outsAt0 m c t.val t.isLt).1 : Vec Ideal S512x1 .f32) (ix2 p (0 : Fin 1)) = Gk m c (ix2 (rowOf t p) (0 : Fin 1)) := by
  have h0 : ¬t.val % 20 = 0 := by omega
  have h20 : t.val % 20 + 1 = 20 := by omega
  rw [out_last m c t h0 h1, Pay.tail_apply]
  refine head_congr ?_ ?_ ?_ ?_ ?_ ?_ ?_
  · funext q
    rw [accW_eq m c p q t.val t.isLt, h20, pre_full, ftb_blk]
    rfl
  · funext q
    rw [accB_eq m c p q t.val t.isLt, h20, pre_full, ftb_blk]
    rfl
  · exact stm_blk m c t p
  · rw [l1w_blk]
  · rw [l1b_blk]
  · rw [l2w_blk]
  · rw [l2b_blk]

/-- So the whole stored block is the specification read at the row block's rows. -/
theorem out_block (c : Dev nD) (t : Fin cfg0.N) (h1 : t.val % 20 = 19) :
    ((outsAt0 m c t.val t.isLt).1 : Vec Ideal S512x1 .f32) = fun y : S512x1.Idx => Gk m c (ix2 (rowOf t (y 0)) (0 : Fin 1)) := by
  funext y
  obtain ⟨p, q, rfl⟩ : ∃ (p : Fin 512) (q : Fin 1), y = ix2 p q := ⟨y 0, y 1, eq_ix2 y⟩
  have hq : q = 0 := Fin.ext (by omega)
  subst hq
  exact out_row m c t h1 p

/-! ## Blocks to the array -/

/-- What a writing point writes back is its block of the specification. -/
theorem flushed_eq (c : Dev nD) (t : Fin cfg0.N) (hf : (cfg0.win 9).flush t = true) :
    (dats m 0 c).flushed 9 t = ((cfg0.win 9).blk t).view.read (Elt Ideal) (Gk m c) := by
  have h1 : t.val % 20 = 19 := (flush0_9 t).mp hf
  obtain ⟨-, -, -, -, -, -, -, -, -, -, -, -, -, -, -, e0, e1⟩ := idx_facts t
  rw [Value.flushed9, out_block m c t h1]
  funext y
  show Gk m c (ix2 (rowOf t (y 0)) (0 : Fin 1)) = Gk m c (((cfg0.win 9).blk t).view.emb y)
  refine congrArg (Gk m c) (funext fun a => Fin.ext ?_)
  have hy1 : (y 1).val < 1 := (y 1).isLt
  match a with
  | ⟨0, _⟩ => show 512 * (t.val / 20) + (y 0).val = win0_9.index t (0 : Fin 2) * 512 + 1 * (y 0).val; rw [e0]; omega
  | ⟨1, _⟩ => show 0 = win0_9.index t (1 : Fin 2) * 1 + 1 * (y 1).val; rw [e1]; omega

/-- An index is in point t's output block iff each coordinate is in the block's range. -/
theorem mem_blk (t : Fin cfg0.N) (i : S4096x1.Idx) :
    i ∈ ((cfg0.win 9).blk t).view.set ↔ ∀ a : Fin 2, win0_9.index t a * S512x1.size a ≤ (i a).val
      ∧ (i a).val < win0_9.index t a * S512x1.size a + S512x1.size a := by
  show i ∈ ((View.whole main_v1).slice (win0_9.rect t)).set ↔ _
  rw [View.set_slice_whole, Rect.mem_set_unit]
  exact Iff.rfl

/-- Every row lies in the block written at the last point of its row block. -/
theorem cover (i : S4096x1.Idx) :
    ∃ t : Fin cfg0.N, (cfg0.win 9).flush t = true ∧ i ∈ ((cfg0.win 9).blk t).view.set := by
  have hi0 : (i 0).val < 4096 := (i 0).isLt
  have hi1 : (i 1).val < 1 := (i 1).isLt
  have ht : 20 * ((i 0).val / 512) + 19 < cfg0.N := by rw [hN]; omega
  obtain ⟨-, -, -, -, -, -, -, -, -, -, -, -, -, -, -, e0, e1⟩ := idx_facts ⟨20 * ((i 0).val / 512) + 19, ht⟩
  refine ⟨⟨20 * ((i 0).val / 512) + 19, ht⟩, (flush0_9 _).mpr (by show (20 * ((i 0).val / 512) + 19) % 20 = 19; omega), ?_⟩
  rw [mem_blk]
  intro a
  match a with
  | ⟨0, _⟩ =>
    show win0_9.index ⟨20 * ((i 0).val / 512) + 19, ht⟩ (0 : Fin 2) * 512 ≤ (i 0).val
      ∧ (i 0).val < win0_9.index ⟨20 * ((i 0).val / 512) + 19, ht⟩ (0 : Fin 2) * 512 + 512
    rw [e0]
    show (20 * ((i 0).val / 512) + 19) / 20 * 512 ≤ (i 0).val ∧ (i 0).val < (20 * ((i 0).val / 512) + 19) / 20 * 512 + 512
    omega
  | ⟨1, _⟩ =>
    show win0_9.index ⟨20 * ((i 0).val / 512) + 19, ht⟩ (1 : Fin 2) * 1 ≤ (i 1).val
      ∧ (i 1).val < win0_9.index ⟨20 * ((i 0).val / 512) + 19, ht⟩ (1 : Fin 2) * 1 + 1
    rw [e1]
    omega

/-- The result array after the run is the specification's function of the argument arrays. -/
theorem final (c : Dev nD) : (dats m 0 c).arrAt 9 cfg0.N = Gk m c :=
  (dats m 0 c).arrAt_eq_of_cover 9 (Gk m c) (flushed_eq m c) cover

/-- The run, read: the result array at the specification, the nine arguments unchanged. -/
theorem run : θ_run defs (onTc (τ := τ) (main (F := Ideal))) ⟨m, fun _ => 0, ρ⟩ fun r => ∀ c : Dev nD,
      r.2.mem ((c : Thread nD τ).loc main_v1) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Final

end
-- ==== Proof.lean ====
/-
  A feature transformer with a small clipped network on top, against its reference.

  Both programs compute, for each of 4096 rows r,
      w[o] = (∑ f, wfts[r, f] * ft_w[o, f]) + ft_b[o],   b[o] likewise from bfts   (o < 4),
      h[c] = clip (stm[r] * (w ++ b)[c] + (1 - stm[r]) * (b ++ w)[c])              (c < 8),
      h'[o] = clip ((∑ i, h[i] * l1_w[o, i]) + l1_b[o]),
      out[r] = (∑ i, h'[i] * l2_w[0, i]) + l2_b[0],        clip x = min 1 (max 0 x).
  The reference takes each feature sum in one contraction over the 40960 features.  The kernel walks a
  grid of 8 row blocks by 20 feature blocks: at a row block's first point it zeroes two accumulators, at
  every point it adds the block's partial products, and at the last point it adds the bias and runs the
  small network on the row block.  On the extended reals the narrowing casts are the identity and a sum
  may be regrouped freely, so the twenty partial sums from zero are the whole sum, and the two results
  agree entry by entry.  No entry needs to be finite for this; the precondition is not used.

  The three frames are the generated ones (the reference's is its generated run with the result dropped);
  the idealization rewrote nothing.
-/
import proofs.«156854_j5832565588369_1_alg».proof.Defs
import proofs.«156854_j5832565588369_1_alg».proof.Proof.Gen.Kernel
import proofs.«156854_j5832565588369_1_alg».proof.Proof.Gen.Kernel.Skeleton
import proofs.«156854_j5832565588369_1_alg».proof.Proof.Gen.Kernel.Launch
import proofs.«156854_j5832565588369_1_alg».proof.Proof.Gen.Kernel.Points
import proofs.«156854_j5832565588369_1_alg».proof.Proof.Gen.Kernel.Frame
import proofs.«156854_j5832565588369_1_alg».proof.Proof.Gen.KernelIdeal
import proofs.«156854_j5832565588369_1_alg».proof.Proof.Gen.KernelIdeal.Skeleton
import proofs.«156854_j5832565588369_1_alg».proof.Proof.Gen.KernelIdeal.Launch
import proofs.«156854_j5832565588369_1_alg».proof.Proof.Gen.KernelIdeal.Points
import proofs.«156854_j5832565588369_1_alg».proof.Proof.Gen.KernelIdeal.Frame
import proofs.«156854_j5832565588369_1_alg».proof.Proof.Gen.ReferenceIdeal
import proofs.«156854_j5832565588369_1_alg».proof.Proof.Gen.Pre_finite_inputs
import proofs.«156854_j5832565588369_1_alg».proof.Proof.Gen.KernelIdeal.Value
import proofs.«156854_j5832565588369_1_alg».proof.Proof.Gen.ReferenceIdeal.Run
import proofs.«156854_j5832565588369_1_alg».proof.Proof.Gen.ReferenceIdeal.Read
import proofs.«156854_j5832565588369_1_alg».proof.Proof.RefG
import proofs.«156854_j5832565588369_1_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the nine arguments, both programs end with the specification's
    function of those arguments in their result array. -/
theorem algebraic : Cert.algebraic_KernelIdeal_ReferenceIdeal := by
  intro m ρ m' ρ' _ hagree
  refine ⟨fun c => Cert.KernelIdeal.Final.Gk m c, Cert.KernelIdeal.Final.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8⟩ := hagree c
  rw [(h c).1, Cert.ReferenceIdeal.Read.val_main_v26_eq, Cert.ReferenceIdeal.RefG.result_eq,
    a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
